-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S8192x32 : Shape := ⟨2, ![8192, 32]⟩
abbrev S4096x32 : Shape := ⟨2, ![4096, 32]⟩
abbrev S1024x512 : Shape := ⟨2, ![1024, 512]⟩
abbrev S1024x32 : Shape := ⟨2, ![1024, 32]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S4096x4096, .bf16⟩
  | .hbm, ⟨4, _⟩ => ⟨S8192x32, .f32⟩
  | .hbm, ⟨5, _⟩ => ⟨S4096x32, .f32⟩
  | .hbm, ⟨6, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  slices_S8192x4096_S8192x32_0_0 : S8192x4096.Slices ![0, 0] S8192x32
  slices_S4096x4096_S4096x32_0_0 : S4096x4096.Slices ![0, 0] S4096x32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  dot_S1024x512_S1024x512_S1024x1024_1_1_0_0_n_n_wf : DotDims.WF S1024x512 S1024x512 S1024x1024 [1] [1] [0] [0] [] []
  dot_S1024x32_S1024x32_S1024x1024_1_1_0_0_n_n_wf : DotDims.WF S1024x32 S1024x32 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S4096x32.size a
  hwx0_3 : ∀ i : grid0.Coords, EltTy.bits .f32 = 32 ∨ (Rect.block (s := S4096x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf

abbrev win0_0 : Pipeline.Window sig grid0 :=
  Pipeline.Window.ofSpec (Memref.whole main_call0_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S8192x32 : Shape := ⟨2, ![8192, 32]⟩
abbrev S4096x32 : Shape := ⟨2, ![4096, 32]⟩
abbrev S32x4096 : Shape := ⟨2, ![32, 4096]⟩
abbrev S_ : Shape := ⟨0, ![]⟩
abbrev S8192x4064 : Shape := ⟨2, ![8192, 4064]⟩
abbrev S4096x4064 : Shape := ⟨2, ![4096, 4064]⟩
abbrev S4064x4096 : Shape := ⟨2, ![4064, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x32, .f32⟩
  | .hbm, ⟨3, _⟩ => ⟨S4096x32, .f32⟩
  | .hbm, ⟨4, _⟩ => ⟨S32x4096, .f32⟩
  | .hbm, ⟨5, _⟩ => ⟨S8192x4096, .f32⟩
  | .hbm, ⟨6, _⟩ => ⟨S8192x32, .f32⟩
  | .hbm, ⟨7, _⟩ => ⟨S4096x32, .f32⟩
  | .hbm, ⟨8, _⟩ => ⟨S32x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .i1⟩
  | .hbm, ⟨26, _⟩ => ⟨S8192x4064, .f32⟩
  | .hbm, ⟨27, _⟩ => ⟨S4096x4064, .f32⟩
  | .hbm, ⟨28, _⟩ => ⟨S4064x4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_call0_v0 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  slices_S8192x4096_S8192x32_0_0 : S8192x4096.Slices ![0, 0] S8192x32
  slices_S4096x4096_S4096x32_0_0 : S4096x4096.Slices ![0, 0] S4096x32
  transposes_S4096x32_S32x4096_1_0 : S4096x32.Transposes [1, 0] S32x4096
  bcast_S_S8192x4096 : S_.BroadcastsInDim S8192x4096 (![] : Fin 0 → Fin S8192x4096.rank)
  slices_S8192x4096_S8192x4064_0_32 : S8192x4096.Slices ![0, 32] S8192x4064
  slices_S4096x4096_S4096x4064_0_32 : S4096x4096.Slices ![0, 32] S4096x4064
  transposes_S4096x4064_S4064x4096_1_0 : S4096x4064.Transposes [1, 0] S4064x4096
  dot_S8192x32_S32x4096_S8192x4096_1_0_0_1_n_n_wf : DotDims.WF S8192x32 S32x4096 S8192x4096 [1] [0] [0] [1] [] []
  dot_S8192x4064_S4064x4096_S8192x4096_1_0_0_1_n_n_wf : DotDims.WF S8192x4064 S4064x4096 S8192x4096 [1] [0] [0] [1] [] []

variable [Facts₀]

def dot_S8192x32_S32x4096_S8192x4096_1_0_0_1_n_n : DotDims S8192x32 S32x4096 S8192x4096 where
  lhsContracting := [1]
  rhsContracting := [0]
  lhsNonContracting := [0]
  rhsNonContracting := [1]
  lhsBatch := []
  rhsBatch := []
  wf := dot_S8192x32_S32x4096_S8192x4096_1_0_0_1_n_n_wf
def dot_S8192x4064_S4064x4096_S8192x4096_1_0_0_1_n_n : DotDims S8192x4064 S4064x4096 S8192x4096 where
  lhsContracting := [1]
  rhsContracting := [0]
  lhsNonContracting := [0]
  rhsNonContracting := [1]
  lhsBatch := []
  rhsBatch := []
  wf := dot_S8192x4064_S4064x4096_S8192x4096_1_0_0_1_n_n_wf

class Facts : Prop extends Facts₀ where

variable [Facts]
-- ==== Proof.Spec.lean ====
/-
  The function both programs compute, index by index, on the extended reals, and the one law that joins
  their two arrangements of the long sum.

  For a row `b` of `x` (8192 × 4096) and a row `o` of `W` (4096 × 4096):
  * `lead x W b o`   = Σ_{c < 32} x[b,c] · W[o,c]            (the first 32 columns' product),
  * `leadSq x W b o` = Σ_{c < 32} (x[b,c]·x[b,c]) · (W[o,c]·W[o,c]),
  * `whole x W b o`  = Σ_{c < 4096} x[b,c] · W[o,c]          (the full product),
  and the result is `0` where the one-sided test statistic of the first 32 terms
  (mean / sqrt (variance / 32), mean = lead / 32, variance = leadSq / 32 − mean²) lies below the
  5 % normal quantile, and `whole` elsewhere.

  One program adds the first 32 columns' product to the product over the other 4064 columns; the other
  adds up eight products over 512 consecutive columns each, starting from zero. Addition on the extended
  reals is commutative and associative (a commutative monoid), so both are the sum over all 4096 columns:
  `partialSum` counts the columns by a natural number and `partialSum_add` appends a stretch of columns.
  No finiteness of the entries is needed.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The sample size 32 as both programs write it: the f32 pattern of `32.0`. -/
abbrev n32 : EReal := Ideal.ofBits .f32 0x42000000#32
/-- The bound of the test, the f32 pattern nearest the 5 % quantile of the standard normal. -/
abbrev bound : EReal := Ideal.ofBits .f32 0xBFD28A90#32
/-- The zero both programs select where the test passes. -/
abbrev zero32 : EReal := Ideal.ofBits .f32 0x00000000#32

/-- The test: from the sum `s` of 32 terms and the sum `q` of the products of their factors' squares,
    `(s/32) / sqrt ((q/32 − (s/32)²) / 32) < bound`, as a one-bit word. -/
def passed (s q : EReal) : BitVec 1 :=
  Ideal.cmp .olt
    (Ideal.div (Ideal.div s n32)
      (Ideal.sqrt (Ideal.div (Ideal.div q n32 - Ideal.div s n32 * Ideal.div s n32) n32)))
    bound

variable (x : (⟨2, ![8192, 4096]⟩ : Shape).Idx → EReal) (W : (⟨2, ![4096, 4096]⟩ : Shape).Idx → EReal)

/-- One term of the product of row `b` of `x` with row `o` of `W`. -/
def term (b : Fin 8192) (o : Fin 4096) (c : Fin 4096) : EReal := x (ix2 b c) * W (ix2 o c)

/-- The product over all 4096 columns. -/
def whole (b : Fin 8192) (o : Fin 4096) : EReal := ∑ c : Fin 4096, term x W b o c

/-- The product over the first 32 columns. -/
def lead (b : Fin 8192) (o : Fin 4096) : EReal :=
  ∑ c : Fin 32, term x W b o (Fin.castLE (by decide) c)

/-- The product of the squares over the first 32 columns. -/
def leadSq (b : Fin 8192) (o : Fin 4096) : EReal :=
  ∑ c : Fin 32, (x (ix2 b (Fin.castLE (by decide) c)) * x (ix2 b (Fin.castLE (by decide) c)))
    * (W (ix2 o (Fin.castLE (by decide) c)) * W (ix2 o (Fin.castLE (by decide) c)))

/-- The result array: zero where the test passes, the full product elsewhere. -/
def result : (⟨2, ![8192, 4096]⟩ : Shape).Idx → EReal := fun i =>
  Scalar.select (passed (lead x W (i 0) (i 1)) (leadSq x W (i 0) (i 1))) zero32 (whole x W (i 0) (i 1))

/-! ## Sums over stretches of columns -/

/-- A term of the product for a column counted as a natural number: zero past the last column. -/
def termN (b : Fin 8192) (o : Fin 4096) (n : ℕ) : EReal :=
  if h : n < 4096 then term x W b o ⟨n, h⟩ else 0

theorem termN_of_lt (b : Fin 8192) (o : Fin 4096) {n : ℕ} (h : n < 4096) :
    termN x W b o n = term x W b o ⟨n, h⟩ := dif_pos h

/-- The product over the first `n` columns. -/
def partialSum (b : Fin 8192) (o : Fin 4096) (n : ℕ) : EReal := ∑ c ∈ Finset.range n, termN x W b o c

theorem partialSum_zero (b : Fin 8192) (o : Fin 4096) : partialSum x W b o 0 = 0 := Finset.sum_range_zero _

/-- Appending the next `k` columns to the product over the first `n`. -/
theorem partialSum_add (b : Fin 8192) (o : Fin 4096) (n k : ℕ) :
    partialSum x W b o (n + k) = partialSum x W b o n + ∑ c : Fin k, termN x W b o (n + c.val) := by
  unfold partialSum
  rw [Finset.sum_range_add, Finset.sum_range (fun c => termN x W b o (n + c))]

/-- All 4096 columns. -/
theorem whole_eq_partialSum (b : Fin 8192) (o : Fin 4096) : whole x W b o = partialSum x W b o 4096 := by
  unfold whole partialSum
  rw [Finset.sum_range]
  exact Finset.sum_congr rfl fun c _ => (termN_of_lt x W b o c.isLt).symm

/-- The first 32 columns. -/
theorem lead_eq_partialSum (b : Fin 8192) (o : Fin 4096) : lead x W b o = partialSum x W b o 32 := by
  unfold lead partialSum
  rw [Finset.sum_range]
  exact Finset.sum_congr rfl fun c _ => (termN_of_lt x W b o (by have := c.isLt; omega)).symm

/-- The first 32 columns' product plus the product over the remaining 4064 is the full product. -/
theorem lead_add_rest (b : Fin 8192) (o : Fin 4096) :
    lead x W b o + ∑ c : Fin 4064, termN x W b o (32 + c.val) = whole x W b o := by
  rw [lead_eq_partialSum, ← partialSum_add, whole_eq_partialSum]

/-- Eight stretches of 512 columns: after stretch `k` the running sum is the product over the first
    `512·(k+1)` columns. -/
theorem partialSum_stretch (b : Fin 8192) (o : Fin 4096) (k : ℕ) :
    partialSum x W b o (512 * k) + ∑ c : Fin 512, termN x W b o (512 * k + c.val)
      = partialSum x W b o (512 * (k + 1)) := by
  rw [← partialSum_add]
  exact congrArg (partialSum x W b o) (by omega)

end Cert.Spec

end
-- ==== Proof.RefValue.lean ====
/-
  The reference, read index by index, is the specified function: its two 32-column products are `lead` and
  `leadSq` (the transposed slices read back at (o, c)), its product over the remaining 4064 columns reads
  column `32 + c`, and the sum of the two products is the full product (`Spec.lead_add_rest`). The test and the
  selection are the same extended-real operations on both sides.
-/
import proofs.«406374_j48679159333251_3_alg».proof.Proof.Gen.ReferenceIdeal.Read
import proofs.«406374_j48679159333251_3_alg».proof.Proof.Spec

noncomputable section

namespace Cert.RefValue

open Cert.ReferenceIdeal Cert.ReferenceIdeal.Read Idealize.ShloMosaic Idealize.ShloMosaic.ValueIdx

variable (x : (⟨S8192x4096, .f32⟩ : BufTy).Contents (Elt Ideal)) (W : (⟨S4096x4096, .f32⟩ : BufTy).Contents (Elt Ideal))

/-- Row `b`, column `k` of the sliced `x` is `x[b, k]`. -/
theorem x_lead_idx (b : Fin 8192) (o : Fin 4096) (k : Fin 32) :
    idx_main_v0 (lidx_main_v3 (ix2 b o) k) = ix2 b (Fin.castLE (by decide) k) :=
  funext fun a => Fin.ext (by match a with | ⟨0, _⟩ => rfl | ⟨1, _⟩ => rfl)

/-- Row `k`, column `o` of the transposed slice of `W` is `W[o, k]`. -/
theorem w_lead_idx (b : Fin 8192) (o : Fin 4096) (k : Fin 32) :
    idx_main_v1 (idx_main_v2 (ridx_main_v3 (ix2 b o) k)) = ix2 o (Fin.castLE (by decide) k) :=
  funext fun a => Fin.ext (by match a with | ⟨0, _⟩ => rfl | ⟨1, _⟩ => rfl)

/-- The first product is `lead`. -/
theorem v3_eq (b : Fin 8192) (o : Fin 4096) : val_main_v3 (F := Ideal) x W (ix2 b o) = Spec.lead x W b o := by
  rw [val_main_v3_apply]
  unfold Spec.lead Spec.term
  refine Finset.sum_congr rfl fun k _ => ?_
  rw [val_main_v0_apply, val_main_v2_apply, val_main_v1_apply, x_lead_idx, w_lead_idx]

/-- The product of the squares is `leadSq`. -/
theorem v7_eq (b : Fin 8192) (o : Fin 4096) : val_main_v7 (F := Ideal) x W (ix2 b o) = Spec.leadSq x W b o := by
  rw [val_main_v7_apply]
  unfold Spec.leadSq
  refine Finset.sum_congr rfl fun k _ => ?_
  rw [val_main_v4_apply, val_main_v6_apply, val_main_v5_apply, val_main_v0_apply, val_main_v1_apply]
  show x (idx_main_v0 (lidx_main_v3 (ix2 b o) k)) * x (idx_main_v0 (lidx_main_v3 (ix2 b o) k))
      * (W (idx_main_v1 (idx_main_v2 (ridx_main_v3 (ix2 b o) k))) * W (idx_main_v1 (idx_main_v2 (ridx_main_v3 (ix2 b o) k)))) = _
  rw [x_lead_idx, w_lead_idx]

/-- Row `b`, column `k` of the second slice of `x` is `x[b, 32 + k]`. -/
theorem x_rest_idx (b : Fin 8192) (o : Fin 4096) (k : Fin 4064) (h : 32 + k.val < 4096) :
    idx_main_v20 (lidx_main_v23 (ix2 b o) k) = ix2 b ⟨32 + k.val, h⟩ :=
  funext fun a => Fin.ext (by match a with | ⟨0, _⟩ => rfl | ⟨1, _⟩ => rfl)

/-- Row `k`, column `o` of the transposed second slice of `W` is `W[o, 32 + k]`. -/
theorem w_rest_idx (b : Fin 8192) (o : Fin 4096) (k : Fin 4064) (h : 32 + k.val < 4096) :
    idx_main_v21 (idx_main_v22 (ridx_main_v23 (ix2 b o) k)) = ix2 o ⟨32 + k.val, h⟩ :=
  funext fun a => Fin.ext (by match a with | ⟨0, _⟩ => rfl | ⟨1, _⟩ => rfl)

/-- The second product runs over the columns from 32 on. -/
theorem v23_eq (b : Fin 8192) (o : Fin 4096) :
    val_main_v23 (F := Ideal) x W (ix2 b o) = ∑ c : Fin 4064, Spec.termN x W b o (32 + c.val) := by
  rw [val_main_v23_apply]
  refine Finset.sum_congr rfl fun k _ => ?_
  have h : 32 + k.val < 4096 := by have := k.isLt; omega
  rw [val_main_v20_apply, val_main_v22_apply, val_main_v21_apply, x_rest_idx b o k h, w_rest_idx b o k h,
    Spec.termN_of_lt x W b o h]
  rfl

/-- THE REFERENCE'S RESULT is the specified function. -/
theorem ref_eq : val_main_v25 (F := Ideal) x W = Spec.result x W := by
  funext i
  obtain ⟨b, o, rfl⟩ : ∃ (b : Fin 8192) (o : Fin 4096), i = ix2 b o := ⟨i 0, i 1, eq_ix2 i⟩
  simp only [val_main_v25_apply, val_main_v24_apply, val_main_v19_apply, val_main_v17_apply, val_main_v16_apply,
    val_main_v15_apply, val_main_v13_apply, val_main_v12_apply, val_main_v11_apply, val_main_v9_apply,
    val_main_call0_v0_apply, val_main_cst_3_apply, val_main_v18_apply, val_main_cst_2_apply, val_main_v14_apply,
    val_main_cst_1_apply, val_main_v10_apply, val_main_cst_0_apply, val_main_v8_apply, val_main_cst_apply,
    v3_eq, v7_eq, v23_eq, Ideal.addf_def]
  rw [Spec.lead_add_rest]
  rfl

end Cert.RefValue

end
-- ==== Proof.KernelPieces.lean ====
/-
  What each of the body's three cases leaves behind, as the body's pure terms of what it loaded:
  * the first point of a run stores the reset value, reads it back and takes one accumulation step;
  * a middle point takes one step from what the point before left in the scratch;
  * the last point takes one step, leaves that in the scratch, and stores the epilogue of it in the output block.
  Every store covers its whole buffer, so the last store into a buffer is what the buffer holds.
-/
import proofs.«406374_j48679159333251_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First point of a run: the scratch ends at one step from the reset value. -/
theorem scratch_first (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1024x512 .bf16) (x1 : Vec F S1024x512 .bf16) (x2 : Vec F S1024x32 .f32) (x3 : Vec F S1024x32 .f32) :
    sout0_A_0 c i arg3 harg3 arg4 harg4 arg5 harg5 arg6 harg6 arg7 harg7 arg8 harg8 hc0 hc1 x0 x1 x2 x3 = k0_pay2 k0_pay1 x0 x1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz]
  simp only [View.readAt_eq_ld, harg3.read_unread, harg4.read_unread, View.ld_unit_zero (S := S1024x512) hz,
    View.readCov_unit_zero (S := S1024x1024) _ hz]

/-- A middle point: one step from what the point before left. -/
theorem scratch_mid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1024x512 .bf16) (x1 : Vec F S1024x512 .bf16) (x2 : Vec F S1024x32 .f32) (x3 : Vec F S1024x32 .f32) (xs0 : Vec F S1024x1024 .f32) :
    sout0_B_0 c i arg3 harg3 arg4 harg4 arg5 harg5 arg6 harg6 arg7 harg7 arg8 harg8 hc0 hc1 x0 x1 x2 x3 xs0 = k0_pay2 xs0 x0 x1 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg8.read_unread, View.ld_unit_zero (S := S1024x512) hz,
    View.ld_unit_zero (S := S1024x1024) hz]

/-- The last point of a run: the scratch, one step from what the point before left. -/
theorem scratch_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .bf16) (x1 : Vec F S1024x512 .bf16) (x2 : Vec F S1024x32 .f32) (x3 : Vec F S1024x32 .f32) (xs0 : Vec F S1024x1024 .f32) :
    sout0_C_0 c i arg3 harg3 arg4 harg4 arg5 harg5 arg6 harg6 arg7 harg7 arg8 harg8 hc0 hc1 x0 x1 x2 x3 xs0 = k0_pay2 xs0 x0 x1 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg8.read_unread, View.ld_unit_zero (S := S1024x512) hz,
    View.ld_unit_zero (S := S1024x1024) hz]

/-- The last point of a run: the output block, the epilogue of the scratch after this point's step. -/
theorem out_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .bf16) (x1 : Vec F S1024x512 .bf16) (x2 : Vec F S1024x32 .f32) (x3 : Vec F S1024x32 .f32) (xs0 : Vec F S1024x1024 .f32) :
    out0_C_4 c i arg3 harg3 arg4 harg4 arg5 harg5 arg6 harg6 arg7 harg7 arg8 harg8 hc0 hc1 x0 x1 x2 x3 xs0 = k0_pay3 x2 x3 (k0_pay2 xs0 x0 x1) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread,
    View.ld_unit_zero (S := S1024x512) hz, View.ld_unit_zero (S := S1024x32) hz, View.ld_unit_zero (S := S1024x1024) hz,
    View.readCov_unit_zero (S := S1024x1024) _ hz]

end Cert.KernelIdeal.Pieces

end
-- ==== Proof.KernelPayload.lean ====
/-
  The kernel body's three pure terms, read at an entry (p, q) of the 1024 × 1024 block, at the extended reals:
  * the reset value is zero;
  * one accumulation step adds, to the entry it finds, row `p` of the x-block against row `q` of the W-block
    over the step's 512 columns (the change of float format before the product is the identity);
  * the epilogue selects zero where the test on the two 32-column products passes, and the accumulated entry
    elsewhere.
-/
import proofs.«406374_j48679159333251_3_alg».proof.Proof.Gen.KernelIdeal.Skeleton
import proofs.«406374_j48679159333251_3_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ### The 512-column product of two row blocks, read at an entry -/

theorem lhs512_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs512_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs512_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs512_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- Entry (p, q) of the matrix unit's product of two blocks of 512 columns, into a zero accumulator: row `p` of
    the left block against row `q` of the right one, summed over the 512 columns. -/
theorem mm512_apply (l r : FVec Ideal S1024x512 .bf16) (p q : Fin 1024) :
    matmul dot_S1024x512_S1024x512_S1024x1024_1_1_0_0_n_n none l r (constant S1024x1024 .f32 0x00000000#32) (ix2 p q)
      = ∑ c : Fin 512, l (ix2 p c) * r (ix2 q c) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs512_0 _ _
    | ⟨1, _⟩ => exact (lhs512_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs512_0 _ _
    | ⟨1, _⟩ => exact (rhs512_1 _ _).trans hk)
  rw [el, er]

/-! ### The 32-column product of two row blocks, read at an entry -/

theorem lhs32_0 (i : S1024x1024.Idx) (q : dot_S1024x32_S1024x32_S1024x1024_1_1_0_0_n_n.contr.Idx) :
    (dot_S1024x32_S1024x32_S1024x1024_1_1_0_0_n_n.lhsIdx i q 0).val = (i 0).val := by
  unfold DotDims.lhsIdx
  rw [dif_neg (show ¬(0 : Fin S1024x32.rank) ∈ dot_S1024x32_S1024x32_S1024x1024_1_1_0_0_n_n.lhsBatch by decide), dif_pos (show (0 : Fin S1024x32.rank) ∈ dot_S1024x32_S1024x32_S1024x1024_1_1_0_0_n_n.lhsNonContracting by decide)]
  rfl
theorem lhs32_1 (i : S1024x1024.Idx) (q : dot_S1024x32_S1024x32_S1024x1024_1_1_0_0_n_n.contr.Idx) :
    (dot_S1024x32_S1024x32_S1024x1024_1_1_0_0_n_n.lhsIdx i q 1).val = (q ⟨0, by decide⟩).val :=
  dot_S1024x32_S1024x32_S1024x1024_1_1_0_0_n_n.lhsIdx_val_of_single rfl i q
theorem rhs32_0 (i : S1024x1024.Idx) (q : dot_S1024x32_S1024x32_S1024x1024_1_1_0_0_n_n.contr.Idx) :
    (dot_S1024x32_S1024x32_S1024x1024_1_1_0_0_n_n.rhsIdx i q 0).val = (i 1).val := by
  unfold DotDims.rhsIdx
  rw [dif_neg (show ¬(0 : Fin S1024x32.rank) ∈ dot_S1024x32_S1024x32_S1024x1024_1_1_0_0_n_n.rhsBatch by decide), dif_pos (show (0 : Fin S1024x32.rank) ∈ dot_S1024x32_S1024x32_S1024x1024_1_1_0_0_n_n.rhsNonContracting by decide)]
  rfl
theorem rhs32_1 (i : S1024x1024.Idx) (q : dot_S1024x32_S1024x32_S1024x1024_1_1_0_0_n_n.contr.Idx) :
    (dot_S1024x32_S1024x32_S1024x1024_1_1_0_0_n_n.rhsIdx i q 1).val = (q ⟨0, by decide⟩).val :=
  dot_S1024x32_S1024x32_S1024x1024_1_1_0_0_n_n.rhsIdx_val_of_single rfl i q

/-- Entry (p, q) of the matrix unit's product of two blocks of 32 columns, into a zero accumulator: row `p` of
    the left block against row `q` of the right one, summed over the 32 columns. -/
theorem mm32_apply (l r : FVec Ideal S1024x32 .bf16) (p q : Fin 1024) :
    matmul dot_S1024x32_S1024x32_S1024x1024_1_1_0_0_n_n none l r (constant S1024x1024 .f32 0x00000000#32) (ix2 p q)
      = ∑ c : Fin 32, l (ix2 p c) * r (ix2 q c) := by
  simp only [matmul]
  rw [Ideal.matmul_constant_zero_apply, ← Equiv.sum_comp (ValueIdx.contrEquiv1 dot_S1024x32_S1024x32_S1024x1024_1_1_0_0_n_n 32 rfl rfl).symm]
  refine Finset.sum_congr rfl fun k _ => ?_
  have hk := ValueIdx.contrEquiv1_symm_val dot_S1024x32_S1024x32_S1024x1024_1_1_0_0_n_n 32 rfl rfl k
  have el : dot_S1024x32_S1024x32_S1024x1024_1_1_0_0_n_n.lhsIdx (ix2 p q) ((ValueIdx.contrEquiv1 dot_S1024x32_S1024x32_S1024x1024_1_1_0_0_n_n 32 rfl rfl).symm k) = ix2 p k := funext fun a => Fin.ext (by
    match a with
    | ⟨0, _⟩ => exact lhs32_0 _ _
    | ⟨1, _⟩ => exact (lhs32_1 _ _).trans hk)
  have er : dot_S1024x32_S1024x32_S1024x1024_1_1_0_0_n_n.rhsIdx (ix2 p q) ((ValueIdx.contrEquiv1 dot_S1024x32_S1024x32_S1024x1024_1_1_0_0_n_n 32 rfl rfl).symm k) = ix2 q k := funext fun a => Fin.ext (by
    match a with
    | ⟨0, _⟩ => exact rhs32_0 _ _
    | ⟨1, _⟩ => exact (rhs32_1 _ _).trans hk)
  rw [el, er]

/-! ### The three payloads -/

/-- The reset stores zero everywhere. -/
theorem reset_apply (j : S1024x1024.Idx) : k0_pay1 (F := Ideal) j = 0 := by
  unfold k0_pay1
  simp only [shapeCast_self]
  exact Ideal.ofBits_zero_f32

/-- One accumulation step at entry (p, q). -/
theorem step_apply (acc : Vec Ideal S1024x1024 .f32) (xb wb : Vec Ideal S1024x512 .bf16) (p q : Fin 1024) :
    k0_pay2 (F := Ideal) acc xb wb (ix2 p q) = acc (ix2 p q) + ∑ c : Fin 512, xb (ix2 p c) * wb (ix2 q c) := by
  unfold k0_pay2
  simp only [shapeCast_self]
  show acc (ix2 p q) + matmul (F := Ideal) dot_S1024x512_S1024x512_S1024x1024_1_1_0_0_n_n none xb wb (constant S1024x1024 .f32 0x00000000#32) (ix2 p q) = _
  rw [mm512_apply]

/-- The epilogue at entry (p, q): the test on the two 32-column products decides between zero and the
    accumulated entry. -/
theorem epilogue_apply (xe we : Vec Ideal S1024x32 .f32) (acc : Vec Ideal S1024x1024 .f32) (p q : Fin 1024) :
    k0_pay3 (F := Ideal) xe we acc (ix2 p q)
      = Scalar.select (Spec.passed (∑ c : Fin 32, xe (ix2 p c) * we (ix2 q c))
          (∑ c : Fin 32, (xe (ix2 p c) * xe (ix2 p c)) * (we (ix2 q c) * we (ix2 q c)))) Spec.zero32 (acc (ix2 p q)) := by
  have e1 := mm32_apply (truncf .bf16 xe bitsLt_bf16_f32) (truncf .bf16 we bitsLt_bf16_f32) p q
  have e2 := mm32_apply (truncf .bf16 (mulf xe xe) bitsLt_bf16_f32) (truncf .bf16 (mulf we we) bitsLt_bf16_f32) p q
  unfold k0_pay3
  simp only [shapeCast_self]
  show Scalar.select (Spec.passed
      (matmul (F := Ideal) dot_S1024x32_S1024x32_S1024x1024_1_1_0_0_n_n none (truncf .bf16 xe bitsLt_bf16_f32) (truncf .bf16 we bitsLt_bf16_f32) (constant S1024x1024 .f32 0x00000000#32) (ix2 p q))
      (matmul (F := Ideal) dot_S1024x32_S1024x32_S1024x1024_1_1_0_0_n_n none (truncf .bf16 (mulf xe xe) bitsLt_bf16_f32) (truncf .bf16 (mulf we we) bitsLt_bf16_f32) (constant S1024x1024 .f32 0x00000000#32) (ix2 p q)))
      Spec.zero32 (acc (ix2 p q)) = _
  rw [e1, e2]
  rfl

end Cert.KernelIdeal.Payload

end
-- ==== Proof.KernelBlocks.lean ====
/-
  Where each input block of the kernel sits in the two arguments. The grid has 8 × 4 × 8 points, counted row-major:
  point `t` is row block `t / 32` of `x`, row block `t / 8 % 4` of `W`, column stretch `t % 8`. At point `t`
  * the x-block holds rows `1024·(t/32) + p`, columns `512·(t%8) + k` of `x` (after a change of float format,
    the identity on the extended reals),
  * the W-block holds rows `1024·(t/8%4) + q`, columns `512·(t%8) + k` of `W`,
  * the two narrow blocks hold the same rows' first 32 columns (host slices of the arguments).
-/
import proofs.«406374_j48679159333251_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe
open Idealize.SL.Sem Idealize.ShloMosaic.ValueIdx Idealize.ShloMosaic.StableHlo

variable {F : FTy → Type} [FloatOps F]
variable (m : (ℓ : Loc nD τ sig) → Buf (Elt F) ℓ)

/-- The block indices of the five windows at point `t`, decided over the 256 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = 0
    ∧ win0_3.index t (0 : Fin 2) = t.val / 8 % 4 ∧ win0_3.index t (1 : Fin 2) = 0
    ∧ win0_4.index t (0 : Fin 2) = t.val / 32 ∧ win0_4.index t (1 : Fin 2) = t.val / 8 % 4 :=
  (by decide +kernel : ∀ t : Fin grid0.N, _)

/-- The two arguments, as arrays. -/
abbrev argX (c : Dev nD) : Vec F S8192x4096 .f32 := m ((c : Thread nD τ).loc main_arg0)
abbrev argW (c : Dev nD) : Vec F S4096x4096 .f32 := m ((c : Thread nD τ).loc main_arg1)

/-- The four input blocks at point `t`, each at its literal shape. -/
abbrev xblk (c : Dev nD) (t : Fin cfg0.N) : Vec F S1024x512 .bf16 := iblk m c 0 t
abbrev wblk (c : Dev nD) (t : Fin cfg0.N) : Vec F S1024x512 .bf16 := iblk m c 1 t
abbrev xlead (c : Dev nD) (t : Fin cfg0.N) : Vec F S1024x32 .f32 := iblk m c 2 t
abbrev wlead (c : Dev nD) (t : Fin cfg0.N) : Vec F S1024x32 .f32 := iblk m c 3 t

/-! ## The arrays the windows stage, from the arguments -/

theorem V_x16 (c : Dev nD) :
    (V m c main_call0_v0 : Vec F S8192x4096 .bf16) = truncf .bf16 (argX m c) bitsLt_bf16_f32 := by
  dsimp only [V, hostOps0]; after_results; rfl

theorem V_w16 (c : Dev nD) :
    (V m c main_call0_v1 : Vec F S4096x4096 .bf16) = truncf .bf16 (argW m c) bitsLt_bf16_f32 := by
  dsimp only [V, hostOps0]; after_results; rfl

theorem V_xlead (c : Dev nD) :
    (V m c main_call0_v2 : Vec F S8192x32 .f32) = extractStridedSlice S8192x32 ![0, 0] (argX m c) slices_S8192x4096_S8192x32_0_0 := by
  dsimp only [V, hostOps0]; after_results; rfl

theorem V_wlead (c : Dev nD) :
    (V m c main_call0_v3 : Vec F S4096x32 .f32) = extractStridedSlice S4096x32 ![0, 0] (argW m c) slices_S4096x4096_S4096x32_0_0 := by
  dsimp only [V, hostOps0]; after_results; rfl

/-! ## The blocks at a point, entry by entry -/

/-- Entry (p, k) of the x-block at point `t`. -/
theorem xblk_apply (c : Dev nD) (t : Fin cfg0.N) (p : Fin 1024) (k : Fin 512)
    (hb : 1024 * (t.val / 32) + p.val < 8192) (hk : 512 * (t.val % 8) + k.val < 4096) :
    xblk m c t (ix2 p k)
      = (V m c main_call0_v0 : Vec F S8192x4096 .bf16) (ix2 ⟨1024 * (t.val / 32) + p.val, hb⟩ ⟨512 * (t.val % 8) + k.val, hk⟩) := by
  obtain ⟨e0, e1, -⟩ := idx_facts t
  unfold xblk iblk
  rw [View.read_apply]
  show V m c main_call0_v0 _ = V m c main_call0_v0 _
  congr 1
  funext a
  apply Fin.ext
  match a with
  | ⟨0, _⟩ => show win0_0.index t (0 : Fin 2) * 1024 + 1 * p.val = 1024 * (t.val / 32) + p.val; rw [e0]; omega
  | ⟨1, _⟩ => show win0_0.index t (1 : Fin 2) * 512 + 1 * k.val = 512 * (t.val % 8) + k.val; rw [e1]; omega

/-- Entry (q, k) of the W-block at point `t`. -/
theorem wblk_apply (c : Dev nD) (t : Fin cfg0.N) (q : Fin 1024) (k : Fin 512)
    (ho : 1024 * (t.val / 8 % 4) + q.val < 4096) (hk : 512 * (t.val % 8) + k.val < 4096) :
    wblk m c t (ix2 q k)
      = (V m c main_call0_v1 : Vec F S4096x4096 .bf16) (ix2 ⟨1024 * (t.val / 8 % 4) + q.val, ho⟩ ⟨512 * (t.val % 8) + k.val, hk⟩) := by
  obtain ⟨-, -, e0, e1, -⟩ := idx_facts t
  unfold wblk iblk
  rw [View.read_apply]
  show V m c main_call0_v1 _ = V m c main_call0_v1 _
  congr 1
  funext a
  apply Fin.ext
  match a with
  | ⟨0, _⟩ => show win0_1.index t (0 : Fin 2) * 1024 + 1 * q.val = 1024 * (t.val / 8 % 4) + q.val; rw [e0]; omega
  | ⟨1, _⟩ => show win0_1.index t (1 : Fin 2) * 512 + 1 * k.val = 512 * (t.val % 8) + k.val; rw [e1]; omega

/-- Entry (p, k) of the narrow x-block at point `t`: row `1024·(t/32) + p`, column `k` of `x`. -/
theorem xlead_apply (c : Dev nD) (t : Fin cfg0.N) (p : Fin 1024) (k : Fin 32)
    (hb : 1024 * (t.val / 32) + p.val < 8192) :
    xlead m c t (ix2 p k)
      = argX m c (ix2 ⟨1024 * (t.val / 32) + p.val, hb⟩ (Fin.castLE (by decide) k)) := by
  obtain ⟨-, -, -, -, e0, e1, -⟩ := idx_facts t
  unfold xlead iblk
  rw [View.read_apply]
  show (V m c main_call0_v2 : Vec F S8192x32 .f32) _ = _
  rw [V_xlead]
  refine extractStridedSlice_apply (s := S8192x4096) (t := S8192x32) ![0, 0] (argX m c) slices_S8192x4096_S8192x32_0_0 _ _ (fun a => ?_)
  match a with
  | ⟨0, _⟩ => show 1024 * (t.val / 32) + p.val = 0 + (win0_2.index t (0 : Fin 2) * 1024 + 1 * p.val); rw [e0]; omega
  | ⟨1, _⟩ => show k.val = 0 + (win0_2.index t (1 : Fin 2) * 32 + 1 * k.val); rw [e1]; omega

/-- Entry (q, k) of the narrow W-block at point `t`: row `1024·(t/8%4) + q`, column `k` of `W`. -/
theorem wlead_apply (c : Dev nD) (t : Fin cfg0.N) (q : Fin 1024) (k : Fin 32)
    (ho : 1024 * (t.val / 8 % 4) + q.val < 4096) :
    wlead m c t (ix2 q k)
      = argW m c (ix2 ⟨1024 * (t.val / 8 % 4) + q.val, ho⟩ (Fin.castLE (by decide) k)) := by
  obtain ⟨-, -, -, -, -, -, e0, e1, -⟩ := idx_facts t
  unfold wlead iblk
  rw [View.read_apply]
  show (V m c main_call0_v3 : Vec F S4096x32 .f32) _ = _
  rw [V_wlead]
  refine extractStridedSlice_apply (s := S4096x4096) (t := S4096x32) ![0, 0] (argW m c) slices_S4096x4096_S4096x32_0_0 _ _ (fun a => ?_)
  match a with
  | ⟨0, _⟩ => show 1024 * (t.val / 8 % 4) + q.val = 0 + (win0_3.index t (0 : Fin 2) * 1024 + 1 * q.val); rw [e0]; omega
  | ⟨1, _⟩ => show k.val = 0 + (win0_3.index t (1 : Fin 2) * 32 + 1 * k.val); rw [e1]; omega

end Cert.KernelIdeal.Blocks

end
-- ==== Proof.KernelFold.lean ====
/-
  The kernel's result array. Each run of eight consecutive grid points works on one 1024 × 1024 block of the
  result: the scratch after point `8r + j` holds, at (p, q), the product of row `1024·(r/4) + p` of `x` with row
  `1024·(r%4) + q` of `W` over the first `512·(j+1)` columns (induction on `j` over the run's fold: the reset
  value is zero, and each step appends its 512 columns: `Spec.partialSum_stretch`). The last point of the run writes
  back the epilogue of the whole product, which is the specified function on that block; the 32 blocks tile the array.
-/
import proofs.«406374_j48679159333251_3_alg».proof.Proof.Gen.KernelIdeal.Value
import proofs.«406374_j48679159333251_3_alg».proof.Proof.KernelPieces
import proofs.«406374_j48679159333251_3_alg».proof.Proof.KernelPayload
import proofs.«406374_j48679159333251_3_alg».proof.Proof.KernelBlocks
import proofs.«406374_j48679159333251_3_alg».proof.Proof.Spec

noncomputable section

namespace Cert.KernelIdeal.Fold

open Cert.KernelIdeal Cert.KernelIdeal.Gen Cert.KernelIdeal.Value Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One point's step -/

/-- What point `n` leaves in the scratch over what the point before left: one accumulation step of the point's
    two blocks, from the reset value at the first point of a run. -/
theorem scAt_eq (c : Dev nD) (n : ℕ) (hb : n < cfg0.N) (acc : Vec Ideal S1024x1024 .f32) :
    scAt0_0 m c n hb acc = k0_pay2 (if n % 8 = 0 then k0_pay1 else acc) (xblk m c ⟨n, hb⟩) (wblk m c ⟨n, hb⟩) := by
  unfold scAt0_0
  by_cases h0 : n % 8 = 0
  · have h1 : ¬n % 8 = 7 := by omega
    rw [dif_pos h0, dif_neg h1, if_pos h0]
    exact Pieces.scratch_first c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) _ _ (xblk m c ⟨n, hb⟩) (wblk m c ⟨n, hb⟩) (xlead m c ⟨n, hb⟩) (wlead m c ⟨n, hb⟩)
  · rw [dif_neg h0, if_neg h0]
    by_cases h1 : n % 8 = 7
    · rw [dif_pos h1]
      exact Pieces.scratch_last c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) _ _ (xblk m c ⟨n, hb⟩) (wblk m c ⟨n, hb⟩) (xlead m c ⟨n, hb⟩) (wlead m c ⟨n, hb⟩) acc
    · rw [dif_neg h1]
      exact Pieces.scratch_mid c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) _ _ (xblk m c ⟨n, hb⟩) (wblk m c ⟨n, hb⟩) (xlead m c ⟨n, hb⟩) (wlead m c ⟨n, hb⟩) acc

/-- One term of a step at point `t`: entry (p, k) of the x-block times entry (q, k) of the W-block is the term of
    the product of the block's rows at column `512·(t%8) + k`. -/
theorem term_at (c : Dev nD) (t : Fin cfg0.N) (p q : Fin 1024) (k : Fin 512) (b : Fin 8192) (o : Fin 4096) (n : ℕ)
    (hb : b.val = 1024 * (t.val / 32) + p.val) (ho : o.val = 1024 * (t.val / 8 % 4) + q.val)
    (hn : n = 512 * (t.val % 8) + k.val) :
    xblk m c t (ix2 p k) * wblk m c t (ix2 q k) = Spec.termN (argX m c) (argW m c) b o n := by
  subst hn
  obtain ⟨bv, hbv⟩ := b
  obtain ⟨ov, hov⟩ := o
  dsimp only at hb ho
  subst hb ho
  have hk : 512 * (t.val % 8) + k.val < 4096 := by have := k.isLt; omega
  rw [Spec.termN_of_lt _ _ _ _ hk, xblk_apply m c t p k hbv hk, wblk_apply m c t q k hov hk, V_x16, V_w16]
  rfl

/-! ## The scratch after each point of a run -/

/-- After point `8r + j` of run `r` the scratch holds, at (p, q), the product over the first `512·(j+1)` columns. -/
theorem fold_apply (c : Dev nD) (r : ℕ) (p q : Fin 1024) (b : Fin 8192) (o : Fin 4096)
    (hb : b.val = 1024 * (r / 4) + p.val) (ho : o.val = 1024 * (r % 4) + q.val) :
    ∀ (j : ℕ) (_ : j < 8) (h : 8 * r + j < cfg0.N),
      Pipeline.accAt (fun n h => scAt0_0 m c n h (VS0_0.read (Elt Ideal) VS0_0.junk)) (scAt0_0 m c) (8 * r) j h (ix2 p q)
        = Spec.partialSum (argX m c) (argW m c) b o (512 * (j + 1))
  | 0, _, h => by
    show scAt0_0 m c (8 * r) h (VS0_0.read (Elt Ideal) VS0_0.junk) (ix2 p q) = _
    rw [scAt_eq, if_pos (by omega : (8 * r) % 8 = 0), Payload.step_apply, Payload.reset_apply, zero_add,
      ← Spec.partialSum_stretch _ _ b o 0, Nat.mul_zero, Spec.partialSum_zero, zero_add]
    refine Finset.sum_congr rfl fun k _ => ?_
    exact term_at m c ⟨8 * r, h⟩ p q k b o _ (by rw [hb]; show _ = 1024 * (8 * r / 32) + p.val; omega)
      (by rw [ho]; show _ = 1024 * (8 * r / 8 % 4) + q.val; omega) (by show 0 + k.val = 512 * (8 * r % 8) + k.val; omega)
  | j + 1, hj, h => by
    show scAt0_0 m c (8 * r + (j + 1)) h (Pipeline.accAt _ _ (8 * r) j (Nat.lt_of_succ_lt h)) (ix2 p q) = _
    rw [scAt_eq, if_neg (by omega : ¬(8 * r + (j + 1)) % 8 = 0), Payload.step_apply,
      fold_apply c r p q b o hb ho j (by omega) _, ← Spec.partialSum_stretch _ _ b o (j + 1)]
    congr 1
    refine Finset.sum_congr rfl fun k _ => ?_
    exact term_at m c ⟨8 * r + (j + 1), h⟩ p q k b o _ (by rw [hb]; show _ = 1024 * ((8 * r + (j + 1)) / 32) + p.val; omega)
      (by rw [ho]; show _ = 1024 * ((8 * r + (j + 1)) / 8 % 4) + q.val; omega)
      (by show 512 * (j + 1) + k.val = 512 * ((8 * r + (j + 1)) % 8) + k.val; omega)

/-- The scratch after any point `t`, at (p, q). -/
theorem scratch_apply (c : Dev nD) (t : Fin cfg0.N) (p q : Fin 1024) (b : Fin 8192) (o : Fin 4096)
    (hb : b.val = 1024 * (t.val / 32) + p.val) (ho : o.val = 1024 * (t.val / 8 % 4) + q.val) :
    (outsAt0 m c t.val t.isLt).2 (ix2 p q) = Spec.partialSum (argX m c) (argW m c) b o (512 * (t.val % 8 + 1)) := by
  have hN : t.val < 256 := lt_of_lt_of_eq t.isLt N_0
  rw [soutsAt0_0_eq m c t]
  exact fold_apply m c (t.val / 8) p q b o (by rw [hb]; omega) (by rw [ho]) (t.val % 8) (by omega) _

/-! ## What a run's last point writes back -/

/-- The narrow blocks' two 32-column products at point `t` are `lead` and `leadSq` of the block's rows. -/
theorem lead_at (c : Dev nD) (t : Fin cfg0.N) (p q : Fin 1024) (b : Fin 8192) (o : Fin 4096)
    (hb : b.val = 1024 * (t.val / 32) + p.val) (ho : o.val = 1024 * (t.val / 8 % 4) + q.val) :
    (∑ k : Fin 32, xlead m c t (ix2 p k) * wlead m c t (ix2 q k)) = Spec.lead (argX m c) (argW m c) b o
    ∧ (∑ k : Fin 32, (xlead m c t (ix2 p k) * xlead m c t (ix2 p k)) * (wlead m c t (ix2 q k) * wlead m c t (ix2 q k)))
        = Spec.leadSq (argX m c) (argW m c) b o := by
  obtain ⟨bv, hbv⟩ := b
  obtain ⟨ov, hov⟩ := o
  dsimp only at hb ho
  subst hb ho
  constructor
  · unfold Spec.lead Spec.term
    exact Finset.sum_congr rfl fun k _ => by rw [xlead_apply m c t p k hbv, wlead_apply m c t q k hov]
  · unfold Spec.leadSq
    exact Finset.sum_congr rfl fun k _ => by rw [xlead_apply m c t p k hbv, wlead_apply m c t q k hov]

/-- The specified function at an index, from its coordinates. -/
theorem result_at (X : Vec Ideal S8192x4096 .f32) (Wt : Vec Ideal S4096x4096 .f32) (i : S8192x4096.Idx) (b : Fin 8192) (o : Fin 4096)
    (hb : (i 0).val = b.val) (ho : (i 1).val = o.val) :
    Spec.result X Wt i = Scalar.select (Spec.passed (Spec.lead X Wt b o) (Spec.leadSq X Wt b o)) Spec.zero32 (Spec.whole X Wt b o) := by
  obtain rfl : i 0 = b := Fin.ext hb
  obtain rfl : i 1 = o := Fin.ext ho
  rfl

/-- The epilogue of the scratch after the last point of a run, at (p, q): the specified function at the block's
    row `1024·(t/32) + p` and column `1024·(t/8%4) + q`. -/
theorem block_eq (c : Dev nD) (t : Fin cfg0.N) (h7 : t.val % 8 = 7) (p q : Fin 1024) (b : Fin 8192) (o : Fin 4096)
    (hb : b.val = 1024 * (t.val / 32) + p.val) (ho : o.val = 1024 * (t.val / 8 % 4) + q.val) :
    k0_pay3 (F := Ideal) (xlead m c t) (wlead m c t) (outsAt0 m c t.val t.isLt).2 (ix2 p q)
      = Scalar.select (Spec.passed (Spec.lead (argX m c) (argW m c) b o) (Spec.leadSq (argX m c) (argW m c) b o))
          Spec.zero32 (Spec.whole (argX m c) (argW m c) b o) := by
  rw [Payload.epilogue_apply, scratch_apply m c t p q b o hb ho, show 512 * (t.val % 8 + 1) = 4096 from by omega,
    (lead_at m c t p q b o hb ho).1, (lead_at m c t p q b o hb ho).2, ← Spec.whole_eq_partialSum]

/-- WHAT THE LAST POINT OF A RUN WRITES BACK is its block of the specified function. -/
theorem flushed_eq (c : Dev nD) (t : Fin cfg0.N) (hf : (cfg0.win 4).flush t = true) :
    (dats m 0 c).flushed 4 t = ((cfg0.win 4).blk t).view.read (Elt Ideal) (Spec.result (argX m c) (argW m c)) := by
  have h7 : t.val % 8 = 7 := (flush0_4 t).mp hf
  have h0 : ¬t.val % 8 = 0 := by omega
  have hN : t.val < 256 := lt_of_lt_of_eq t.isLt N_0
  obtain ⟨-, -, -, -, -, -, -, -, e0, e1⟩ := idx_facts t
  have hs : (outsAt0 m c t.val t.isLt).2
      = k0_pay2 (outsAt0 m c (t.val - 1) (Nat.lt_of_le_of_lt (Nat.sub_le _ _) t.isLt)).2 (xblk m c t) (wblk m c t) := by
    rw [outsAt0_C m c t h0 h7]
    dsimp only
    exact Pieces.scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (xblk m c t) (wblk m c t) (xlead m c t) (wlead m c t) _
  rw [flushed4_C m c t h0 h7,
    Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (xblk m c t) (wblk m c t) (xlead m c t) (wlead m c t) (outsAt0 m c (t.val - 1) (Nat.lt_of_le_of_lt (Nat.sub_le _ _) t.isLt)).2,
    ← hs]
  funext j
  have hj0 : (j 0).val < 1024 := (j 0).isLt
  have hj1 : (j 1).val < 1024 := (j 1).isLt
  have hbv : 1024 * (t.val / 32) + (j 0).val < 8192 := by omega
  have hov : 1024 * (t.val / 8 % 4) + (j 1).val < 4096 := by omega
  have ej : (j : S1024x1024.Idx) = ix2 (⟨(j 0).val, hj0⟩ : Fin 1024) (⟨(j 1).val, hj1⟩ : Fin 1024) :=
    funext fun a => Fin.ext (by match a with | ⟨0, _⟩ => rfl | ⟨1, _⟩ => rfl)
  show k0_pay3 (F := Ideal) (xlead m c t) (wlead m c t) (outsAt0 m c t.val t.isLt).2 j
      = Spec.result (argX m c) (argW m c) (((cfg0.win 4).blk t).view.emb j)
  refine (congrArg (k0_pay3 (F := Ideal) (xlead m c t) (wlead m c t) (outsAt0 m c t.val t.isLt).2) ej).trans ?_
  refine (block_eq m c t h7 ⟨(j 0).val, hj0⟩ ⟨(j 1).val, hj1⟩ ⟨_, hbv⟩ ⟨_, hov⟩ rfl rfl).trans ?_
  refine (result_at _ _ _ ⟨_, hbv⟩ ⟨_, hov⟩ ?_ ?_).symm
  · show win0_4.index t (0 : Fin 2) * 1024 + 1 * (j 0).val = 1024 * (t.val / 32) + (j 0).val; rw [e0]; omega
  · show win0_4.index t (1 : Fin 2) * 1024 + 1 * (j 1).val = 1024 * (t.val / 8 % 4) + (j 1).val; rw [e1]; omega

/-! ## The blocks tile the array -/

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v0).slice (win0_4.rect t)).set ↔ _
  rw [View.set_slice_whole, Rect.mem_set_unit]
  exact Iff.rfl

/-- Every index lies in the block some run's last point writes back: the run of its row block and column block. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  obtain ⟨tv, htv⟩ : ∃ tv : ℕ, tv = 32 * ((i 0).val / 1024) + 8 * ((i 1).val / 1024) + 7 := ⟨_, rfl⟩
  have hlt : tv < cfg0.N := by rw [show cfg0.N = 256 from N_0]; omega
  obtain ⟨-, -, -, -, -, -, -, -, e0, e1⟩ := idx_facts ⟨tv, hlt⟩
  refine ⟨⟨tv, hlt⟩, (flush0_4 _).mpr (by show tv % 8 = 7; omega), ?_⟩
  rw [mem_blk]
  intro a
  match a with
  | ⟨0, _⟩ =>
    show win0_4.index ⟨tv, hlt⟩ (0 : Fin 2) * 1024 ≤ (i 0).val ∧ (i 0).val < win0_4.index ⟨tv, hlt⟩ (0 : Fin 2) * 1024 + 1024
    rw [e0]; show tv / 32 * 1024 ≤ (i 0).val ∧ (i 0).val < tv / 32 * 1024 + 1024; omega
  | ⟨1, _⟩ =>
    show win0_4.index ⟨tv, hlt⟩ (1 : Fin 2) * 1024 ≤ (i 1).val ∧ (i 1).val < win0_4.index ⟨tv, hlt⟩ (1 : Fin 2) * 1024 + 1024
    rw [e1]; show tv / 8 % 4 * 1024 ≤ (i 1).val ∧ (i 1).val < tv / 8 % 4 * 1024 + 1024; omega

/-! ## The run -/

/-- The result array after the run is the specified function of the two arguments. -/
theorem final (c : Dev nD) : (dats m 0 c).arrAt 4 cfg0.N = Spec.result (argX m c) (argW m c) :=
  (dats m 0 c).arrAt_eq_of_cover 4 (Spec.result (argX m c) (argW m c)) (flushed_eq m c) cover

/-- The kernel's run: it terminates with the result array at the specified function and the arguments unchanged. -/
theorem run : θ_run defs (onTc (τ := τ) (main (F := Ideal))) ⟨m, fun _ => 0, ρ⟩ fun r => ∀ c : Dev nD,
      r.2.mem ((c : Thread nD τ).loc main_v0) = Spec.result (argX m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Fold

end
-- ==== Proof.lean ====
/-
  The certificate of the fused kernel against its reference: both compute, for every row `b` of `x` and row `o` of
  `W`, zero where the test statistic of the first 32 columns' product lies below the bound, and the product over all
  4096 columns elsewhere (`Cert.Spec.result`).

  * The kernel (`Cert.KernelIdeal.Fold.run`): each 1024 × 1024 block of the result is accumulated in a scratch over a
    run of eight grid points, 512 columns a point, from zero; the run's last point stores the epilogue of the
    accumulated block. Over the extended reals the accumulated entry is the sum over the 4096 columns.
  * The reference (`Cert.RefValue.ref_eq`): the product over the first 32 columns plus the product over the other
    4064, which is the same sum: addition on the extended reals is commutative and associative, and that is the only
    law used, so the precondition (finite inputs) is never opened.
  * The three frames are the generated frames of the two kernels and the reference's generated run with the result
    dropped; the idealization rewrote no operation, so `preserves` is `True`.
-/
import proofs.«406374_j48679159333251_3_alg».proof.Defs
import proofs.«406374_j48679159333251_3_alg».proof.Proof.Gen.Kernel
import proofs.«406374_j48679159333251_3_alg».proof.Proof.Gen.Kernel.Skeleton
import proofs.«406374_j48679159333251_3_alg».proof.Proof.Gen.Kernel.Launch
import proofs.«406374_j48679159333251_3_alg».proof.Proof.Gen.Kernel.Points
import proofs.«406374_j48679159333251_3_alg».proof.Proof.Gen.Kernel.Frame
import proofs.«406374_j48679159333251_3_alg».proof.Proof.Gen.KernelIdeal
import proofs.«406374_j48679159333251_3_alg».proof.Proof.Gen.KernelIdeal.Skeleton
import proofs.«406374_j48679159333251_3_alg».proof.Proof.Gen.KernelIdeal.Launch
import proofs.«406374_j48679159333251_3_alg».proof.Proof.Gen.KernelIdeal.Points
import proofs.«406374_j48679159333251_3_alg».proof.Proof.Gen.KernelIdeal.Frame
import proofs.«406374_j48679159333251_3_alg».proof.Proof.Gen.ReferenceIdeal
import proofs.«406374_j48679159333251_3_alg».proof.Proof.Gen.Pre_finite_inputs
import proofs.«406374_j48679159333251_3_alg».proof.Proof.Gen.KernelIdeal.Value
import proofs.«406374_j48679159333251_3_alg».proof.Proof.Gen.ReferenceIdeal.Run
import proofs.«406374_j48679159333251_3_alg».proof.Proof.Gen.ReferenceIdeal.Read
import proofs.«406374_j48679159333251_3_alg».proof.Proof.Spec
import proofs.«406374_j48679159333251_3_alg».proof.Proof.RefValue
import proofs.«406374_j48679159333251_3_alg».proof.Proof.KernelFold
import Idealize.ShloMosaic.Adequacy
import Idealize.ShloMosaic.Init

noncomputable section

namespace Cert.Proof

open Idealize.ShloMosaic Idealize.SL.Sem

/-- The reference's frame: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the specified function of arguments that agree. -/
theorem algebraic : Cert.algebraic_KernelIdeal_ReferenceIdeal := by
  intro m ρ m' ρ' _ hagree
  refine ⟨fun c => Cert.Spec.result (Cert.KernelIdeal.Blocks.argX m c) (Cert.KernelIdeal.Blocks.argW m c),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
